-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S200000x512 : Shape := ⟨2, ![200000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_

variable [Facts]

def fn_part1 {F : FTy → Type} [FloatOps F] (main_arg4 : FVec F S200000x512 .f32) (main_arg5 : FVec F S200000x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S200000x512 .f32 := Host.absf main_arg4
  let main_cst_6 : FVec F S_ .f32 := constant S_ .f32 0x7F800000#32
  let main_v20 : FVec F S200000x512 .f32 := broadcastInDim S200000x512 ![] bcast_S_S200000x512 main_cst_6
  let main_v21 : IVec S200000x512 1 := cmpf .olt main_v19 main_v20
  let main_c_7 : IVec S_ 1 := constantI S_ 1 1#1
  let main_v22 : IVec S_ 1 := (fun x v => Host.reduce IntOp.andi x v reducesTo_S200000x512_S_d0_1 h_S_) main_v21 main_c_7
  let main_v23 : IVec S_ 1 := andi main_v18 main_v22
  let main_v24 : FVec F S200000x512 .f32 := Host.absf main_arg5
  let main_cst_8 : FVec F S_ .f32 := constant S_ .f32 0x7F800000#32
  let main_v25 : FVec F S200000x512 .f32 := broadcastInDim S200000x512 ![] bcast_S_S200000x512 main_cst_8
  let main_v26 : IVec S200000x512 1 := cmpf .olt main_v24 main_v25
  let main_c_9 : IVec S_ 1 := constantI S_ 1 1#1
  let main_v27 : IVec S_ 1 := (fun x v => Host.reduce IntOp.andi x v reducesTo_S200000x512_S_d0_1 h_S_) main_v26 main_c_9
  let main_v28 : IVec S_ 1 := andi main_v23 main_v27
  main_v28

def fn {F : FTy → Type} [FloatOps F] (main_arg0 : FVec F S512x512 .f32) (main_arg1 : FVec F S512x512 .f32) (main_arg2 : FVec F S512x512 .f32) (main_arg3 : FVec F S512x512 .f32) (main_arg4 : FVec F S200000x512 .f32) (main_arg5 : FVec F S200000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S512x512 : Shape := ⟨2, ![512, 512]⟩
abbrev S200000x512 : Shape := ⟨2, ![200000, 512]⟩
abbrev S512x200000 : Shape := ⟨2, ![512, 200000]⟩
abbrev S2048x512 : Shape := ⟨2, ![2048, 512]⟩
abbrev S512x2048 : Shape := ⟨2, ![512, 2048]⟩

abbrev nBuf : Space → Nat
  | .hbm => 15
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S200000x512, .f32⟩
  | .hbm, ⟨5, _⟩ => ⟨S200000x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x200000, .f32⟩
  | .local _ .vmem, ⟨0, _⟩ => ⟨S512x512, .bf16⟩
  | .local _ .vmem, ⟨1, _⟩ => ⟨S512x512, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x512.size a < S200000x512.size a
  hwx0_2 : ∀ i : grid0.Coords, EltTy.bits .f32 = 32 ∨ (Rect.unit (s := S200000x512) (fun a => cc0_transform_2 i a * S2048x512.size a) (fun a => (Pipeline.Clip.of (cc0_transform_2 i a) (S2048x512.size a) (S200000x512.size a)).extent (S2048x512.size a)) fun a => Pipeline.Clip.inb (Pipeline.Clip.ok_of (hstart0_2 i a))).WholeWords (EltTy.packing .f32)
  hwxs0_2 : ∀ i : grid0.Coords, EltTy.bits .f32 = 32 ∨ (Rect.unit (s := S2048x512) (fun _ => 0) (fun a => (Pipeline.Clip.of (cc0_transform_2 i a) (S2048x512.size a) (S200000x512.size a)).extent (S2048x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x512.size a < S200000x512.size a
  hwx0_3 : ∀ i : grid0.Coords, EltTy.bits .f32 = 32 ∨ (Rect.unit (s := S200000x512) (fun a => cc0_transform_3 i a * S2048x512.size a) (fun a => (Pipeline.Clip.of (cc0_transform_3 i a) (S2048x512.size a) (S200000x512.size a)).extent (S2048x512.size a)) fun a => Pipeline.Clip.inb (Pipeline.Clip.ok_of (hstart0_3 i a))).WholeWords (EltTy.packing .f32)
  hwxs0_3 : ∀ i : grid0.Coords, EltTy.bits .f32 = 32 ∨ (Rect.unit (s := S2048x512) (fun _ => 0) (fun a => (Pipeline.Clip.of (cc0_transform_3 i a) (S2048x512.size a) (S200000x512.size a)).extent (S2048x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x2048.size a < S512x200000.size a
  hwx0_4 : ∀ i : grid0.Coords, EltTy.bits .f32 = 32 ∨ (Rect.unit (s := S512x200000) (fun a => cc0_transform_4 i a * S512x2048.size a) (fun a => (Pipeline.Clip.of (cc0_transform_4 i a) (S512x2048.size a) (S512x200000.size a)).extent (S512x2048.size a)) fun a => Pipeline.Clip.inb (Pipeline.Clip.ok_of (hstart0_4 i a))).WholeWords (EltTy.packing .f32)
  hwxs0_4 : ∀ i : grid0.Coords, EltTy.bits .f32 = 32 ∨ (Rect.unit (s := S512x2048) (fun _ => 0) (fun a => (Pipeline.Clip.of (cc0_transform_4 i a) (S512x2048.size a) (S512x200000.size a)).extent (S512x2048.size a)) fun a => (Nat.zero_add _).trans_le (Pipeline.Clip.extent_le (Pipeline.Clip.ok_of (hstart0_4 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v3) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg4) S2048x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg5) S2048x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v8) S512x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x512 : Shape := ⟨2, ![512, 512]⟩
abbrev S200000x512 : Shape := ⟨2, ![200000, 512]⟩
abbrev S512x200000 : Shape := ⟨2, ![512, 200000]⟩

abbrev nBuf : Space → Nat
  | .hbm => 15
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S200000x512, .f32⟩
  | .hbm, ⟨5, _⟩ => ⟨S200000x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x200000, .f32⟩
  | .hbm, ⟨13, _⟩ => ⟨S512x200000, .f32⟩
  | .hbm, ⟨14, _⟩ => ⟨S512x200000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  dot_S512x512_S200000x512_S512x200000_1_1_0_0_n_n_wf : DotDims.WF S512x512 S200000x512 S512x200000 [1] [1] [0] [0] [] []

variable [Facts₀]

def dot_S512x512_S200000x512_S512x200000_1_1_0_0_n_n : DotDims S512x512 S200000x512 S512x200000 where
  lhsContracting := [1]
  rhsContracting := [1]
  lhsNonContracting := [0]
  rhsNonContracting := [0]
  lhsBatch := []
  rhsBatch := []
  wf := dot_S512x512_S200000x512_S512x200000_1_1_0_0_n_n_wf

class Facts : Prop extends Facts₀ where

variable [Facts]
-- ==== Proof.KernelBody.lean ====
/-
  The body of the scoring kernel, run once per grid point, and the frame of the whole program.

  At a grid point the body loads the two resident [512, 512] operand blocks and the point's two [2048, 512] entity
  blocks whole, forms the two products contracting the embedding axis (each entity block enters by its rows), adds
  them, and stores the [512, 2048] sum over the whole output block.  Nothing else is read or kept between points.

  The last grid point's entity blocks overhang their arrays: rows past the arrays' end hold words nothing names, and
  the product's columns computed from them are cut off again when the output block is written back.  At the
  word-level instance a product's column is not known to depend on its own row of the right operand alone, so here
  the output block is left unnamed: the frame needs only that the run ends and that the argument arrays are
  as they were.
-/
import proofs.«120887_j69114613727355_1_alg».proof.Proof.Gen.Kernel.Frame
import proofs.«120887_j69114613727355_1_alg».proof.Proof.Gen.Kernel.Skeleton
import Idealize.ShloMosaic.Lib.Pipeline.Value

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## The body's accesses: each the whole of its buffer -/

abbrev rOp : Rect S512x512 := Rect.unit (s := S512x512) ![0, 0] S512x512.size inb_S512x512_S512x512_0_0
abbrev rEnt : Rect S2048x512 := Rect.unit (s := S2048x512) ![0, 0] S2048x512.size inb_S2048x512_S2048x512_0_0
abbrev rOut : Rect S512x2048 := Rect.unit (s := S512x2048) ![0, 0] S512x2048.size inb_S512x2048_S512x2048_0_0

/-- The whole-buffer rectangle's offsets are zero. -/
theorem off0 : (![0, 0] : Fin 2 → ℕ) = fun _ => 0 := funext fun a => by fin_cases a <;> rfl

/-- The one store covers the output block. -/
theorem cover_out (w : Vec F S512x2048 .f32) (y : S512x2048.Idx) :
    ∃ pc ∈ ([⟨rOut, w⟩] : List (View.Piece (Elt F) S512x2048 .f32)), y ∈ pc.1.set :=
  ⟨_, List.mem_singleton_self _, View.mem_set_unit_zero off0 inb_S512x2048_S512x2048_0_0 y⟩

/-- What the body leaves in the output block, from what the four input blocks read as: the sum of the two
    products. -/
def scoreBlk (x0 x1 : Vec F S512x512 .bf16) (x2 x3 : Vec F S2048x512 .f32) : Vec F S512x2048 .f32 :=
  k0_pay1 x0 x1 x2 x3

/-! ## The body's triple -/

/-- The body on whole staging memrefs, the inputs' at read contents `x0 … x3` and the output's at anything, runs to
    the continuation holding the inputs' as they were and the output's at `scoreBlk x0 x1 x2 x3`. -/
theorem sound_kernel (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S512x2048 .f32) (harg5 : arg5.IsWhole)
    (x0 x1 : Vec F S512x512 .bf16) (x2 x3 : Vec F S2048x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (scoreBlk x0 x1 x2 x3)) -∗ K ⟨⟩))
      ⊢ wp frame (wpE (defs₀ (F := F)) Variants.none c none) E
          (cc0__complex_score_kernel i arg1 harg1 arg2 harg2 arg3 harg3 arg4 harg4 arg5 harg5) K := by
  simp only [cc0__complex_score_kernel_eq_skeleton]; unfold cc0__complex_score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off0]
  unfold scoreBlk
  simp only [View.readAt_eq_ld, View.ld_unit_zero (S := S512x512) off0, View.ld_unit_zero (S := S2048x512) off0]

/-! ## The pipeline's proof data -/

variable (m : (ℓ : Loc nD τ sig) → Buf (Elt F) ℓ) (ρ : Dev nD → PrngReg)

/-- The output window is left unnamed: nothing the frame says reads what the body leaves there. -/
def forgets : Fin 5 → Bool := fun w => w.val == 4

/-- The proof data of the one pipeline on core `c`: the arrays as the region finds them; after the body at point
    `t` each resident operand's buffer at its block, each entity buffer at its block on the rows inside the array
    (filled out past the array's end with the zero word, which nothing reads), the output's unnamed; the invariant
    the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Scalar.ofBits .f32 0#32) (iblk m c 2 t)
    | ⟨3, _⟩ => (cfg0.win 3).fill (cfg0.grid.coords t) (fun _ => Scalar.ofBits .f32 0#32) (iblk m c 3 t)
    | ⟨4, h⟩ => Pipeline.Dat.unnamed (cfg := cfg0) ⟨4, h⟩ t
  Φ _ := ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = (cfg0.win 2).fill (cfg0.grid.coords t) (fun _ => Scalar.ofBits .f32 0#32) (iblk m c 2 t) := by dsimp only [dats]
theorem after0_3 (c : Dev nD) (t : Fin cfg0.N) : (dats m 0 c).after 3 t
    = (cfg0.win 3).fill (cfg0.grid.coords t) (fun _ => Scalar.ofBits .f32 0#32) (iblk m c 3 t) := by dsimp only [dats]

/-- Each resident operand's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Each entity buffer is fetched at every point: it holds the point's block on the rows inside the array and,
    past the array's end, whatever the overwrite before the fetch left (`d`). -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk
  rw [A_eq]
theorem before0_3 (c : Dev nD) (t : Fin cfg0.N) (d) :
    (dats m 0 c).before 3 t d = (cfg0.win 3).fill (cfg0.grid.coords t) d (iblk m c 3 t) := by
  rw [(dats m 0 c).before_fetched 3 t (fetch0_3 t) d]
  unfold Dat.fetched Dat.blockOf iblk
  rw [A_eq]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the three windows whose last blocks overhang their arrays stated on the part inside the
    array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t))))
    ∗ (∃ X, owns (c : Thread nD τ) (st0_4 t) fullShare X))

/-- The body at any point: the resident operands' memrefs hold their blocks, the entity memrefs theirs filled out
    past the array's end with whatever the fetch left, so the body's triple applies; the entity buffers come back as
    they were found, which on the rows inside the array is their block; the invariant and the core's `owes` pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t)
    ((cfg0.win 2).fill (cfg0.grid.coords t) d2 (iblk m c 2 t)) ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  iexists _; iexact H4

/-- The library's body obligation, at every point, the output window left unnamed. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- From any memory with zero counters every weakly fair execution of the program terminates, and every final state
    has every input array of the pipeline as the region found it (nothing is said of the output array) and every
    other unscoped buffer at its region-entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the run ends and the six argument arrays are as they were — the four operands of the host products no
    window stages, so they bypass the region; the two entity arrays are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((A_eq m c 2).trans (V_main_arg4 m c)),
      (Pipeline.RDat.FramePost.arr_in h c 3 rfl).trans ((A_eq m c 3).trans (V_main_arg5 m c))⟩) (run_main m ρ)

end Cert.Proof.K

end
-- ==== Proof.KernelIdealBody.lean ====
/-
  The body of the scoring kernel, run once per grid point, and the frame of the whole program.

  At a grid point the body loads the two resident [512, 512] operand blocks and the point's two [2048, 512] entity
  blocks whole, forms the two products contracting the embedding axis (each entity block enters by its rows), adds
  them, and stores the [512, 2048] sum over the whole output block.  Nothing else is read or kept between points.

  The last grid point's entity blocks overhang their arrays: rows past the arrays' end hold words nothing names, and
  the product's columns computed from them are cut off again when the output block is written back.  Where a
  product's column depends on its own row of the right operand alone, the part of the output block that is written
  back is a function of the fetched parts of the entity blocks: the proof data name it, and the frame run then says
  what the output array holds at the end.
-/
import proofs.«120887_j69114613727355_1_alg».proof.Proof.Gen.KernelIdeal.Frame
import proofs.«120887_j69114613727355_1_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## The body's accesses: each the whole of its buffer -/

abbrev rOp : Rect S512x512 := Rect.unit (s := S512x512) ![0, 0] S512x512.size inb_S512x512_S512x512_0_0
abbrev rEnt : Rect S2048x512 := Rect.unit (s := S2048x512) ![0, 0] S2048x512.size inb_S2048x512_S2048x512_0_0
abbrev rOut : Rect S512x2048 := Rect.unit (s := S512x2048) ![0, 0] S512x2048.size inb_S512x2048_S512x2048_0_0

/-- The whole-buffer rectangle's offsets are zero. -/
theorem off0 : (![0, 0] : Fin 2 → ℕ) = fun _ => 0 := funext fun a => by fin_cases a <;> rfl

/-- The one store covers the output block. -/
theorem cover_out (w : Vec F S512x2048 .f32) (y : S512x2048.Idx) :
    ∃ pc ∈ ([⟨rOut, w⟩] : List (View.Piece (Elt F) S512x2048 .f32)), y ∈ pc.1.set :=
  ⟨_, List.mem_singleton_self _, View.mem_set_unit_zero off0 inb_S512x2048_S512x2048_0_0 y⟩

/-- What the body leaves in the output block, from what the four input blocks read as: the sum of the two
    products. -/
def scoreBlk (x0 x1 : Vec F S512x512 .bf16) (x2 x3 : Vec F S2048x512 .f32) : Vec F S512x2048 .f32 :=
  k0_pay1 x0 x1 x2 x3

/-! ## The body's triple -/

/-- The body on whole staging memrefs, the inputs' at read contents `x0 … x3` and the output's at anything, runs to
    the continuation holding the inputs' as they were and the output's at `scoreBlk x0 x1 x2 x3`. -/
theorem sound_kernel (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S512x2048 .f32) (harg5 : arg5.IsWhole)
    (x0 x1 : Vec F S512x512 .bf16) (x2 x3 : Vec F S2048x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (scoreBlk x0 x1 x2 x3)) -∗ K ⟨⟩))
      ⊢ wp frame (wpE (defs₀ (F := F)) Variants.none c none) E
          (cc0__complex_score_kernel i arg1 harg1 arg2 harg2 arg3 harg3 arg4 harg4 arg5 harg5) K := by
  simp only [cc0__complex_score_kernel_eq_skeleton]; unfold cc0__complex_score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off0]
  unfold scoreBlk
  simp only [View.readAt_eq_ld, View.ld_unit_zero (S := S512x512) off0, View.ld_unit_zero (S := S2048x512) off0]

/-! ## The pipeline's proof data -/

variable (m : (ℓ : Loc nD τ sig) → Buf (Elt F) ℓ) (ρ : Dev nD → PrngReg)

/-- The proof data of the one pipeline on core `c`: the arrays as the region finds them; after the body at point
    `t` each resident operand's buffer at its block, each entity buffer at its block on the rows inside the array
    (filled out past the array's end with the zero word, which nothing reads), and the output's at the
    sum of the two products of those; the invariant
    the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Scalar.ofBits .f32 0#32) (iblk m c 2 t)
    | ⟨3, _⟩ => (cfg0.win 3).fill (cfg0.grid.coords t) (fun _ => Scalar.ofBits .f32 0#32) (iblk m c 3 t)
    | ⟨4, _⟩ => scoreBlk (iblk m c 0 t) (iblk m c 1 t)
        ((cfg0.win 2).fill (cfg0.grid.coords t) (fun _ => Scalar.ofBits .f32 0#32) (iblk m c 2 t))
        ((cfg0.win 3).fill (cfg0.grid.coords t) (fun _ => Scalar.ofBits .f32 0#32) (iblk m c 3 t))
  Φ _ := ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = (cfg0.win 2).fill (cfg0.grid.coords t) (fun _ => Scalar.ofBits .f32 0#32) (iblk m c 2 t) := by dsimp only [dats]
theorem after0_3 (c : Dev nD) (t : Fin cfg0.N) : (dats m 0 c).after 3 t
    = (cfg0.win 3).fill (cfg0.grid.coords t) (fun _ => Scalar.ofBits .f32 0#32) (iblk m c 3 t) := by dsimp only [dats]
theorem after0_4 (c : Dev nD) (t : Fin cfg0.N) : (dats m 0 c).after 4 t
    = scoreBlk (iblk m c 0 t) (iblk m c 1 t)
        ((cfg0.win 2).fill (cfg0.grid.coords t) (fun _ => Scalar.ofBits .f32 0#32) (iblk m c 2 t))
        ((cfg0.win 3).fill (cfg0.grid.coords t) (fun _ => Scalar.ofBits .f32 0#32) (iblk m c 3 t)) := by dsimp only [dats]

/-- Each resident operand's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Each entity buffer is fetched at every point: it holds the point's block on the rows inside the array and,
    past the array's end, whatever the overwrite before the fetch left (`d`). -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk
  rw [A_eq]
theorem before0_3 (c : Dev nD) (t : Fin cfg0.N) (d) :
    (dats m 0 c).before 3 t d = (cfg0.win 3).fill (cfg0.grid.coords t) d (iblk m c 3 t) := by
  rw [(dats m 0 c).before_fetched 3 t (fetch0_3 t) d]
  unfold Dat.fetched Dat.blockOf iblk
  rw [A_eq]

/-- The output's buffer was written back at the point before (or this is the first point): it holds anything. -/
theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the three windows whose last blocks overhang their arrays stated on the part inside the
    array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t))))
    ∗ (∃ d, owns (c : Thread nD τ) (st0_4 t) fullShare
        ((cfg0.win 4).fill (cfg0.grid.coords t) d ((cfg0.win 4).cut (cfg0.grid.coords t) ((dats m 0 c).after 4 t)))))

/-- The property of the instance the exact proof data needs: on the part of the output block that is written back,
    the sum of the two products depends on the entity blocks only through the parts of them that were fetched (a
    product's column `q` reads row `q` of its right operand, and the output block's columns inside the array
    are the entity blocks' rows inside theirs).  It holds where a product is the plain sum of products. -/
def KeptColumns (F : FTy → Type) [FloatOps F] : Prop :=
  ∀ (t : Fin cfg0.N) (x0 x1 : Vec F S512x512 .bf16) (X2 X2' X3 X3' : Vec F S2048x512 .f32),
    (cfg0.win 2).cut (cfg0.grid.coords t) X2 = (cfg0.win 2).cut (cfg0.grid.coords t) X2' →
    (cfg0.win 3).cut (cfg0.grid.coords t) X3 = (cfg0.win 3).cut (cfg0.grid.coords t) X3' →
    (cfg0.win 4).cut (cfg0.grid.coords t) (scoreBlk x0 x1 X2 X3) = (cfg0.win 4).cut (cfg0.grid.coords t) (scoreBlk x0 x1 X2' X3')

variable (hK : KeptColumns F)
include hK

/-- The body at any point: the resident operands' memrefs hold their blocks, the entity memrefs theirs filled out
    past the array's end with whatever the fetch left, so the body's triple applies; the entity buffers come back as
    they were found, and the output's holds the sum of the products of what was found, which on the columns inside
    the array is the sum of the products of the blocks themselves (`hK`); the invariant and the core's `owes` pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, Window.cut_fill, Window.cut_fill]
  iintro ⟨HΦ, Ho, ⟨%d0, H0⟩, ⟨%d1, H1⟩, ⟨%d2, H2⟩, ⟨%d3, H3⟩, ⟨%d4, H4⟩⟩
  have e4 : (cfg0.win 4).fill (cfg0.grid.coords t)
        (scoreBlk (iblk m c 0 t) (iblk m c 1 t) ((cfg0.win 2).fill (cfg0.grid.coords t) d2 (iblk m c 2 t))
          ((cfg0.win 3).fill (cfg0.grid.coords t) d3 (iblk m c 3 t)))
        ((cfg0.win 4).cut (cfg0.grid.coords t) ((dats m 0 c).after 4 t))
      = scoreBlk (iblk m c 0 t) (iblk m c 1 t) ((cfg0.win 2).fill (cfg0.grid.coords t) d2 (iblk m c 2 t))
          ((cfg0.win 3).fill (cfg0.grid.coords t) d3 (iblk m c 3 t)) := by
    rw [after0_4]
    exact (cfg0.win 4).fill_congr_cut (cfg0.grid.coords t)
      (hK t _ _ _ _ _ _ (by rw [Window.cut_fill, Window.cut_fill]) (by rw [Window.cut_fill, Window.cut_fill]))
  iapply (sound_kernel c Set.univ (grid0.coords t) _ _ _ _ _ _ _ _ _ _ (iblk m c 0 t) (iblk m c 1 t)
    ((cfg0.win 2).fill (cfg0.grid.coords t) d2 (iblk m c 2 t)) ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  iexists _; rw [e4]; iexact H4

/-- The library's body obligation, at every point. -/
theorem body_obligation (c : Dev nD) :
    BodyObligationLoose (dats (F := F) m 0 c) (defs₀ (F := F)) Variants.none () Set.univ := fun t => by
  rw [bigSep_W0, bigSep_W0]
  exact sound_body m hK c t

/-! ## The run and the frame -/

set_option backward.isDefEq.respectTransparency.types false in
/-- From any memory with zero counters every weakly fair execution of the program terminates, and every final state
    has every array of the pipeline at what the write-backs of the proof data's blocks leave and every other
    unscoped buffer at its region-entry contents. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hK c) (hshare := fun c => (dats m 0 c).share_full fun _ => rfl)
    (howed := fun _ _ => rfl) (V := V m) (hmain := hmain m Variants.none) (hA := A_eq m) (hΦ := fun _ _ => rfl)

/-- The frame: the run ends and the six argument arrays are as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ hK)

end Cert.Proof.KI

end
-- ==== Proof.LibRowDot.lean ====
/-
  A contraction of two arrays along their ROW axes, re-indexed.

  For a contraction of a [R, K] array with a [C, K] array (no batch axis; each operand contracts its axis 1, so
  the right operand enters as if transposed), the sum over the contraction's own index type of the operands'
  products at the result index (p, q) is the plain sum over k < K of l(p, k) * r(q, k).  Stated at abstract
  extents and for any such dimension record, so that one lemma serves every product of this form in a program,
  whatever its sizes: a kernel's block product and a whole-array product are two instances of it.

  The operand indices are read one axis at a time.  The left operand's axis 0 is its only non-contracting axis and
  there is no batch axis, so it reads the result index at position 0 + 0; its axis 1 is the only contracting axis and
  reads the contraction index's one coordinate.  The right operand's axis 0 is its only non-contracting axis and reads
  the result index at position 0 + 1 + 0, after the left operand's one non-contracting axis; its axis 1 is its only
  contracting axis.  The contraction index type has one axis of extent K, so it is in bijection with the numbers
  below K, and the sum is carried along that bijection.
-/
import Idealize.ShloMosaic.PureOps.Dims
import Idealize.ShloMosaic.Lib.ValueIdx

namespace RowDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![C, K]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![C, K]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, its only non-contracting axis, reads the result index's coordinate 1: the position
    after no batch axis and the left operand's one non-contracting axis. -/
theorem rhs_val_0 (d : DotDims ⟨2, ![R, K]⟩ ⟨2, ![C, K]⟩ ⟨2, ![R, C]⟩)
    (hrb : d.rhsBatch = []) (hrn : d.rhsNonContracting = [0])
    (hlb : d.lhsBatch = []) (hln : d.lhsNonContracting = [0])
    (j : (⟨2, ![R, C]⟩ : Shape).Idx) (k : d.contr.Idx) :
    (d.rhsIdx j k (0 : Fin 2)).val = (j (1 : Fin 2)).val := by
  have hb : ¬ (0 : Fin 2) ∈ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's axis 1, its only contracting axis, reads the contraction index's one coordinate. -/
theorem rhs_val_1 (d : DotDims ⟨2, ![R, K]⟩ ⟨2, ![C, K]⟩ ⟨2, ![R, C]⟩)
    (hrc : d.rhsContracting = [1]) (hr : d.contr.rank = 1)
    (j : (⟨2, ![R, C]⟩ : Shape).Idx) (k : d.contr.Idx) :
    (d.rhsIdx j k (1 : Fin 2)).val = (k ⟨0, by omega⟩).val :=
  d.rhsIdx_val_of_single hrc j k

/-- The left operand's index at result index `j` and contraction position `k` is `(j 0, k)`. -/
theorem lhsIdx_eq (d : DotDims ⟨2, ![R, K]⟩ ⟨2, ![C, K]⟩ ⟨2, ![R, C]⟩)
    (hlb : d.lhsBatch = []) (hln : d.lhsNonContracting = [0]) (hlc : d.lhsContracting = [1])
    (hr : d.contr.rank = 1) (hs : d.contr.size ⟨0, by omega⟩ = K)
    (j : (⟨2, ![R, C]⟩ : Shape).Idx) (k : Fin K) :
    d.lhsIdx j ((contrEquiv1 d K hr hs).symm k) = ix2 (j 0) k := by
  funext a
  apply Fin.ext
  match a with
  | ⟨0, _⟩ => exact lhs_val_0 d hlb hln j _
  | ⟨1, _⟩ => exact (lhs_val_1 d hlc hr j _).trans (contrEquiv1_symm_val d K hr hs k)

/-- The right operand's index at result index `j` and contraction position `k` is `(j 1, k)`. -/
theorem rhsIdx_eq (d : DotDims ⟨2, ![R, K]⟩ ⟨2, ![C, K]⟩ ⟨2, ![R, C]⟩)
    (hrb : d.rhsBatch = []) (hrn : d.rhsNonContracting = [0]) (hrc : d.rhsContracting = [1])
    (hlb : d.lhsBatch = []) (hln : d.lhsNonContracting = [0])
    (hr : d.contr.rank = 1) (hs : d.contr.size ⟨0, by omega⟩ = K)
    (j : (⟨2, ![R, C]⟩ : Shape).Idx) (k : Fin K) :
    d.rhsIdx j ((contrEquiv1 d K hr hs).symm k) = ix2 (j 1) k := by
  funext a
  apply Fin.ext
  match a with
  | ⟨0, _⟩ => exact rhs_val_0 d hrb hrn hlb hln j _
  | ⟨1, _⟩ => exact (rhs_val_1 d hrc hr j _).trans (contrEquiv1_symm_val d K hr hs k)

/-- The contraction sum at `j = (p, q)` is `∑ k < K, l (p, k) * r (q, k)`. -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (j : (⟨2, ![R, C]⟩ : Shape).Idx) :
    ∑ k : d.contr.Idx, l (d.lhsIdx j k) * r (d.rhsIdx j k) = ∑ k : Fin K, l (ix2 (j 0) k) * r (ix2 (j 1) k) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  exact congrArg₂ (fun a b => l a * r b) (lhsIdx_eq d hlb hln hlc hr hs j k) (rhsIdx_eq d hrb hrn hrc hlb hln hr hs j k)

end RowDot
-- ==== Proof.KernelIdealColumns.lean ====
/-
  The block product read at an index, over the extended reals, and what follows from it for the last grid point.

  At the ideal instance a product into a zero accumulator is the plain sum of products over the embedding axis, a
  change of float format is the identity, and the two operands are read at (row, k) and (column, k): the output
  block's entry (p, q) is  Σ_k x0(p, k)·X2(q, k) + Σ_k x1(p, k)·X3(q, k).  So column q of the output block reads
  row q of each entity block and nothing else of them; the columns of the last output block that lie inside the
  output array are exactly the rows of the last entity blocks that lie inside the entity arrays.
-/
import proofs.«120887_j69114613727355_1_alg».proof.Proof.KernelIdealBody
import proofs.«120887_j69114613727355_1_alg».proof.Proof.LibRowDot
import Idealize.ShloMosaic.PureOps.Ideal.Laws
import Idealize.ShloMosaic.Lib.ValueIdx

set_option maxRecDepth 16384

noncomputable section

namespace Cert.Proof.KI

open Cert.KernelIdeal Cert.KernelIdeal.Gen
open Idealize.ShloMosaic Idealize.ShloMosaic.ValueIdx
open Idealize.ShloMosaic.Pipeline (Dat Cfg Window)

/-- One product of the body at (p, q): the plain sum over the embedding axis. -/
theorem prod_apply (x : FVec Ideal S512x512 .bf16) (X : FVec Ideal S2048x512 .bf16) (p : Fin 512) (q : Fin 2048) :
    matmul (F := Ideal) dot_S512x512_S2048x512_S512x2048_1_1_0_0_n_n none x X (constant (F := Ideal) S512x2048 .f32 0x00000000#32) (ix2 p q)
      = ∑ k : Fin 512, x (ix2 p k) * X (ix2 q k) :=
  (Ideal.matmul_constant_zero_apply dot_S512x512_S2048x512_S512x2048_1_1_0_0_n_n none x X (ix2 p q)).trans
    (RowDot.sum_eq dot_S512x512_S2048x512_S512x2048_1_1_0_0_n_n rfl rfl rfl rfl rfl rfl x X (ix2 p q))

/-- The output block at (p, q). -/
theorem scoreBlk_apply (x0 x1 : Vec Ideal S512x512 .bf16) (X2 X3 : Vec Ideal S2048x512 .f32) (p : Fin 512) (q : Fin 2048) :
    scoreBlk x0 x1 X2 X3 (ix2 p q)
      = (∑ k : Fin 512, x0 (ix2 p k) * X2 (ix2 q k)) + (∑ k : Fin 512, x1 (ix2 p k) * X3 (ix2 q k)) := by
  show addf (F := Ideal) (matmul (F := Ideal) dot_S512x512_S2048x512_S512x2048_1_1_0_0_n_n none (shapeCast S512x512 x0 shapeCasts_S512x512_S512x512)
        (truncf (F := Ideal) .bf16 X2 bitsLt_bf16_f32) (constant (F := Ideal) S512x2048 .f32 0x00000000#32))
      (matmul (F := Ideal) dot_S512x512_S2048x512_S512x2048_1_1_0_0_n_n none (shapeCast S512x512 x1 shapeCasts_S512x512_S512x512)
        (truncf (F := Ideal) .bf16 X3 bitsLt_bf16_f32) (constant (F := Ideal) S512x2048 .f32 0x00000000#32)) (ix2 p q) = _
  refine (addf_apply _ _ (ix2 p q)).trans ?_
  rw [prod_apply, prod_apply]
  simp only [shapeCast_self, truncf_apply]

/-! ## The part of a block a transfer moves -/

/-- Contents of a block that agree on the part a transfer moves agree at every index inside that part. -/
theorem eq_of_cut_eq {G : Pipeline.Grid} (w : Window sig G) {α : Type} (i : G.Coords) {X X' : w.block.Idx → α}
    (h : w.cut i X = w.cut i X') (j : w.block.Idx) (hj : ∀ a, (j a).val < w.xsize i a) : X j = X' j :=
  congrFun h (fun a => ⟨(j a).val, hj a⟩)

/-- The extents of the moved parts, decided over the grid: an entity block is moved on all 512 embedding
    coordinates, and on as many rows as the output block has columns inside the output array (2048 at every point
    but the last, 1344 there). -/
theorem moved_sizes : ∀ t : Fin cfg0.N,
    win0_2.xsize (grid0.coords t) (1 : Fin 2) = 512 ∧ win0_3.xsize (grid0.coords t) (1 : Fin 2) = 512
    ∧ win0_2.xsize (grid0.coords t) (0 : Fin 2) = win0_4.xsize (grid0.coords t) (1 : Fin 2)
    ∧ win0_3.xsize (grid0.coords t) (0 : Fin 2) = win0_4.xsize (grid0.coords t) (1 : Fin 2) :=
  (by decide +kernel : ∀ t : Fin grid0.N, _)

/-- At the ideal instance the written-back part of the output block depends on the entity blocks only through
    their fetched parts: entry (p, q) with q inside the output array reads rows q of the entity blocks, which are
    inside the entity arrays. -/
theorem keptColumns : KeptColumns Ideal := by
  intro t x0 x1 X2 X2' X3 X3' h2 h3
  obtain ⟨s21, s31, s20, s30⟩ := moved_sizes t
  refine funext fun (y : (a : Fin 2) → Fin (win0_4.xsize (grid0.coords t) a)) => ?_
  have hq : (y 1).val < win0_4.xsize (grid0.coords t) (1 : Fin 2) := (y 1).isLt
  have hp : (y 0).val < 512 := lt_of_lt_of_le (y 0).isLt (win0_4.xsize_le (grid0.coords t) 0)
  have hq' : (y 1).val < 2048 := lt_of_lt_of_le (y 1).isLt (win0_4.xsize_le (grid0.coords t) 1)
  have hy : (cfg0.win 4).xinj (cfg0.grid.coords t) y = ix2 (⟨(y 0).val, hp⟩ : Fin 512) (⟨(y 1).val, hq'⟩ : Fin 2048) :=
    funext fun a => by match a with | ⟨0, _⟩ => rfl | ⟨1, _⟩ => rfl
  show scoreBlk x0 x1 X2 X3 ((cfg0.win 4).xinj (cfg0.grid.coords t) y) = scoreBlk x0 x1 X2' X3' ((cfg0.win 4).xinj (cfg0.grid.coords t) y)
  rw [hy, scoreBlk_apply, scoreBlk_apply]
  have e2 : ∀ k : Fin 512, X2 (ix2 (⟨(y 1).val, hq'⟩ : Fin 2048) k) = X2' (ix2 (⟨(y 1).val, hq'⟩ : Fin 2048) k) := fun k =>
    eq_of_cut_eq win0_2 (grid0.coords t) h2 (ix2 (⟨(y 1).val, hq'⟩ : Fin 2048) k) (show ∀ a : Fin 2, _ from fun a => by
      match a with
      | ⟨0, _⟩ => show (y 1).val < win0_2.xsize (grid0.coords t) (0 : Fin 2); rw [s20]; exact hq
      | ⟨1, _⟩ => show k.val < win0_2.xsize (grid0.coords t) (1 : Fin 2); rw [s21]; exact k.isLt)
  have e3 : ∀ k : Fin 512, X3 (ix2 (⟨(y 1).val, hq'⟩ : Fin 2048) k) = X3' (ix2 (⟨(y 1).val, hq'⟩ : Fin 2048) k) := fun k =>
    eq_of_cut_eq win0_3 (grid0.coords t) h3 (ix2 (⟨(y 1).val, hq'⟩ : Fin 2048) k) (show ∀ a : Fin 2, _ from fun a => by
      match a with
      | ⟨0, _⟩ => show (y 1).val < win0_3.xsize (grid0.coords t) (0 : Fin 2); rw [s30]; exact hq
      | ⟨1, _⟩ => show k.val < win0_3.xsize (grid0.coords t) (1 : Fin 2); rw [s31]; exact k.isLt)
  simp only [e2, e3]

end Cert.Proof.KI

end
-- ==== Proof.Spec.lean ====
/-
  The scores, as one function of the six argument arrays over the extended reals.

  With e1 = (a0, a1) the head's real and imaginary parts, r = (a2, a3) the relation's, and (a4, a5) the parts of
  every entity, the score of head row b against entity n is the real part of the bilinear form:

    score(b, n) = Σ_k (a0·a2 − a1·a3)(b, k) · a4(n, k)  +  Σ_k (a1·a2 + a0·a3)(b, k) · a5(n, k),   k < 512.

  Both programs compute exactly this: the same products, the same two sums over the embedding axis, the same final
  addition.  No law of the extended reals is needed beyond reading each side at an index.
-/
import Idealize.ShloMosaic.PureOps.Ideal
import Idealize.ShloMosaic.Lib.ValueIdx

noncomputable section

namespace Cert.Spec

open Idealize.ShloMosaic Idealize.ShloMosaic.ValueIdx

/-- The real part of the head–relation product, at row `b` and embedding coordinate `k`. -/
def reMix (a0 a1 a2 a3 : FVec Ideal ⟨2, ![512, 512]⟩ .f32) (b k : Fin 512) : EReal :=
  a0 (ix2 b k) * a2 (ix2 b k) - a1 (ix2 b k) * a3 (ix2 b k)

/-- Its imaginary part. -/
def imMix (a0 a1 a2 a3 : FVec Ideal ⟨2, ![512, 512]⟩ .f32) (b k : Fin 512) : EReal :=
  a1 (ix2 b k) * a2 (ix2 b k) + a0 (ix2 b k) * a3 (ix2 b k)

/-- The score of head row `j 0` against entity `j 1`. -/
def scores (a0 a1 a2 a3 : FVec Ideal ⟨2, ![512, 512]⟩ .f32) (a4 a5 : FVec Ideal ⟨2, ![200000, 512]⟩ .f32) :
    FVec Ideal ⟨2, ![512, 200000]⟩ .f32 := fun j =>
  (∑ k : Fin 512, reMix a0 a1 a2 a3 (j 0) k * a4 (ix2 (j 1) k))
    + (∑ k : Fin 512, imMix a0 a1 a2 a3 (j 0) k * a5 (ix2 (j 1) k))

end Cert.Spec

end
-- ==== Proof.KernelIdealScores.lean ====
/-
  What the idealized kernel leaves in its result array: the scores of the launch contents.

  Point t of the grid writes back columns 2048·t … of the output array (all 2048 of them, or the 1344 that are inside
  the array at the last point).  What it writes at (p, q) is the sum of the two products of row p of the resident
  operands — the mixed head–relation arrays the host lines computed — with row q of the point's entity blocks, which
  is row 2048·t + q of the entity arrays: the score of head p against entity 2048·t + q.  The 98 blocks cover the
  array, so the array ends holding the scores.
-/
import proofs.«120887_j69114613727355_1_alg».proof.Proof.KernelIdealColumns
import proofs.«120887_j69114613727355_1_alg».proof.Proof.Spec
import Idealize.ShloMosaic.Lib.StableHlo.Run

set_option maxRecDepth 16384

noncomputable section

namespace Cert.Proof.KI

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The six argument arrays, as launched. -/
abbrev arg0 (c : Dev nD) : FVec Ideal S512x512 .f32 := m ((c : Thread nD τ).loc main_arg0)
abbrev arg1 (c : Dev nD) : FVec Ideal S512x512 .f32 := m ((c : Thread nD τ).loc main_arg1)
abbrev arg2 (c : Dev nD) : FVec Ideal S512x512 .f32 := m ((c : Thread nD τ).loc main_arg2)
abbrev arg3 (c : Dev nD) : FVec Ideal S512x512 .f32 := m ((c : Thread nD τ).loc main_arg3)
abbrev arg4 (c : Dev nD) : FVec Ideal S200000x512 .f32 := m ((c : Thread nD τ).loc main_arg4)
abbrev arg5 (c : Dev nD) : FVec Ideal S200000x512 .f32 := m ((c : Thread nD τ).loc main_arg5)

/-- Their scores. -/
abbrev target (c : Dev nD) : FVec Ideal S512x200000 .f32 :=
  Cert.Spec.scores (arg0 m c) (arg1 m c) (arg2 m c) (arg3 m c) (arg4 m c) (arg5 m c)

/-! ## The resident operands as the region finds them -/

/-- The first is the real part of the head–relation product (the change of format is the identity), -/
theorem V_v3 (c : Dev nD) : (V m c main_v3 : S512x512.Idx → EReal)
    = truncf (F := Ideal) .bf16 (subf (mulf (arg0 m c) (arg2 m c)) (mulf (arg1 m c) (arg3 m c))) bitsLt_bf16_f32 := by
  dsimp only [V, hostOps0]; after_results
/-- the second its imaginary part. -/
theorem V_v7 (c : Dev nD) : (V m c main_v7 : S512x512.Idx → EReal)
    = truncf (F := Ideal) .bf16 (addf (mulf (arg1 m c) (arg2 m c)) (mulf (arg0 m c) (arg3 m c))) bitsLt_bf16_f32 := by
  dsimp only [V, hostOps0]; after_results

/-- The printed index maps, decided over the grid: the resident operands' blocks are the whole arrays at every point;
    point `t`'s entity blocks start at row block `t`, where the output block's columns start. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) = 0 ∧ win0_4.index t (1 : Fin 2) = t.val :=
  (by decide +kernel : ∀ t : Fin grid0.N, _)

/-- The first resident block at (p, k). -/
theorem blk0_apply (c : Dev nD) (t : Fin cfg0.N) (p k : Fin 512) :
    iblk m c 0 t (ix2 p k) = Cert.Spec.reMix (arg0 m c) (arg1 m c) (arg2 m c) (arg3 m c) p k := by
  obtain ⟨e0, e1, -⟩ := idx_facts t
  unfold iblk
  rw [View.read_apply]
  have he : ((cfg0.win 0).blk t).view.emb (ix2 p k) = ix2 p k := by
    funext a; apply Fin.ext
    match a with
    | ⟨0, _⟩ => show win0_0.index t (0 : Fin 2) * 512 + 1 * p.val = p.val; rw [e0]; omega
    | ⟨1, _⟩ => show win0_0.index t (1 : Fin 2) * 512 + 1 * k.val = k.val; rw [e1]; omega
  rw [he]
  show (V m c main_v3 : S512x512.Idx → EReal) (ix2 p k) = _
  rw [V_v3]
  rfl

/-- The second. -/
theorem blk1_apply (c : Dev nD) (t : Fin cfg0.N) (p k : Fin 512) :
    iblk m c 1 t (ix2 p k) = Cert.Spec.imMix (arg0 m c) (arg1 m c) (arg2 m c) (arg3 m c) p k := by
  obtain ⟨-, -, e0, e1, -⟩ := idx_facts t
  unfold iblk
  rw [View.read_apply]
  have he : ((cfg0.win 1).blk t).view.emb (ix2 p k) = ix2 p k := by
    funext a; apply Fin.ext
    match a with
    | ⟨0, _⟩ => show win0_1.index t (0 : Fin 2) * 512 + 1 * p.val = p.val; rw [e0]; omega
    | ⟨1, _⟩ => show win0_1.index t (1 : Fin 2) * 512 + 1 * k.val = k.val; rw [e1]; omega
  rw [he]
  show (V m c main_v7 : S512x512.Idx → EReal) (ix2 p k) = _
  rw [V_v7]
  rfl

/-- An entity buffer at an index inside the fetched part holds the entity array's word there. -/
theorem ent2_apply (c : Dev nD) (t : Fin cfg0.N) (d) (z : (a : Fin 2) → Fin (win0_2.xsize (grid0.coords t) a)) :
    (cfg0.win 2).fill (cfg0.grid.coords t) d (iblk m c 2 t) ((cfg0.win 2).xinj (cfg0.grid.coords t) z)
      = arg4 m c (((cfg0.win 2).blk t).view.emb z) := by
  rw [Window.fill_xinj]; unfold iblk; rw [View.read_apply]; exact congrFun (V_main_arg4 m c) _
theorem ent3_apply (c : Dev nD) (t : Fin cfg0.N) (d) (z : (a : Fin 2) → Fin (win0_3.xsize (grid0.coords t) a)) :
    (cfg0.win 3).fill (cfg0.grid.coords t) d (iblk m c 3 t) ((cfg0.win 3).xinj (cfg0.grid.coords t) z)
      = arg5 m c (((cfg0.win 3).blk t).view.emb z) := by
  rw [Window.fill_xinj]; unfold iblk; rw [View.read_apply]; exact congrFun (V_main_arg5 m c) _

/-! ## What a point writes back -/

/-- WHAT POINT `t` WRITES BACK is block `t` of the scores, cut at the array's end. -/
theorem flushed_eq (c : Dev nD) (t : Fin cfg0.N) :
    (dats m 0 c).flushed 4 t = ((cfg0.win 4).blk t).view.read (Elt Ideal) (target m c) := by
  show (cfg0.win 4).cut (cfg0.grid.coords t) ((dats m 0 c).after 4 t) = _
  rw [after0_4]
  obtain ⟨s21, s31, s20, s30⟩ := moved_sizes t
  obtain ⟨-, -, -, -, e20, e21, e30, e31, e40, e41⟩ := idx_facts t
  refine funext fun (y : (a : Fin 2) → Fin (win0_4.xsize (grid0.coords t) a)) => ?_
  have hq : (y 1).val < win0_4.xsize (grid0.coords t) (1 : Fin 2) := (y 1).isLt
  have hp : (y 0).val < 512 := lt_of_lt_of_le (y 0).isLt (win0_4.xsize_le (grid0.coords t) 0)
  have hq' : (y 1).val < 2048 := lt_of_lt_of_le (y 1).isLt (win0_4.xsize_le (grid0.coords t) 1)
  have hy : (cfg0.win 4).xinj (cfg0.grid.coords t) y = ix2 (⟨(y 0).val, hp⟩ : Fin 512) (⟨(y 1).val, hq'⟩ : Fin 2048) :=
    funext fun a => by match a with | ⟨0, _⟩ => rfl | ⟨1, _⟩ => rfl
  -- the array index the block's (y 0, y 1) is: (y 0, 2048·t + y 1)
  have hn : win0_4.index t (1 : Fin 2) * 2048 + 1 * (y 1).val < 200000 := (((cfg0.win 4).blk t).view.emb y (1 : Fin 2)).isLt
  have hi : ((cfg0.win 4).blk t).view.emb y
      = ix2 (⟨(y 0).val, hp⟩ : Fin 512) (⟨win0_4.index t (1 : Fin 2) * 2048 + 1 * (y 1).val, hn⟩ : Fin 200000) := by
    funext a; apply Fin.ext
    match a with
    | ⟨0, _⟩ => show win0_4.index t (0 : Fin 2) * 512 + 1 * (y 0).val = (y 0).val; rw [e40]; omega
    | ⟨1, _⟩ => rfl
  show scoreBlk (F := Ideal) _ _ _ _ ((cfg0.win 4).xinj (cfg0.grid.coords t) y) = target m c (((cfg0.win 4).blk t).view.emb y)
  rw [hy, hi, scoreBlk_apply]
  show _ = (∑ k : Fin 512, Cert.Spec.reMix (arg0 m c) (arg1 m c) (arg2 m c) (arg3 m c) ⟨(y 0).val, hp⟩ k
        * arg4 m c (ix2 (⟨win0_4.index t (1 : Fin 2) * 2048 + 1 * (y 1).val, hn⟩ : Fin 200000) k))
      + (∑ k : Fin 512, Cert.Spec.imMix (arg0 m c) (arg1 m c) (arg2 m c) (arg3 m c) ⟨(y 0).val, hp⟩ k
        * arg5 m c (ix2 (⟨win0_4.index t (1 : Fin 2) * 2048 + 1 * (y 1).val, hn⟩ : Fin 200000) k))
  -- row (y 1) of each entity buffer, inside the fetched part, is row 2048·t + (y 1) of the entity array
  have r2 : ∀ k : Fin 512, (cfg0.win 2).fill (cfg0.grid.coords t) (fun _ => Scalar.ofBits .f32 0#32) (iblk m c 2 t) (ix2 (⟨(y 1).val, hq'⟩ : Fin 2048) k)
      = arg4 m c (ix2 (⟨win0_4.index t (1 : Fin 2) * 2048 + 1 * (y 1).val, hn⟩ : Fin 200000) k) := fun k => by
    let z : (a : Fin 2) → Fin (win0_2.xsize (grid0.coords t) a) := fun a => match a with
      | ⟨0, _⟩ => ⟨(y 1).val, lt_of_lt_of_eq hq s20.symm⟩
      | ⟨1, _⟩ => ⟨k.val, lt_of_lt_of_eq k.isLt s21.symm⟩
    have hz : ix2 (⟨(y 1).val, hq'⟩ : Fin 2048) k = (cfg0.win 2).xinj (cfg0.grid.coords t) z :=
      funext fun a => by match a with | ⟨0, _⟩ => rfl | ⟨1, _⟩ => rfl
    rw [hz, ent2_apply]
    refine congrArg (arg4 m c) (funext fun a => Fin.ext ?_)
    match a with
    | ⟨0, _⟩ => show win0_2.index t (0 : Fin 2) * 2048 + 1 * (y 1).val = win0_4.index t (1 : Fin 2) * 2048 + 1 * (y 1).val; rw [e20]
    | ⟨1, _⟩ => show win0_2.index t (1 : Fin 2) * 512 + 1 * k.val = k.val; rw [e21]; omega
  have r3 : ∀ k : Fin 512, (cfg0.win 3).fill (cfg0.grid.coords t) (fun _ => Scalar.ofBits .f32 0#32) (iblk m c 3 t) (ix2 (⟨(y 1).val, hq'⟩ : Fin 2048) k)
      = arg5 m c (ix2 (⟨win0_4.index t (1 : Fin 2) * 2048 + 1 * (y 1).val, hn⟩ : Fin 200000) k) := fun k => by
    let z : (a : Fin 2) → Fin (win0_3.xsize (grid0.coords t) a) := fun a => match a with
      | ⟨0, _⟩ => ⟨(y 1).val, lt_of_lt_of_eq hq s30.symm⟩
      | ⟨1, _⟩ => ⟨k.val, lt_of_lt_of_eq k.isLt s31.symm⟩
    have hz : ix2 (⟨(y 1).val, hq'⟩ : Fin 2048) k = (cfg0.win 3).xinj (cfg0.grid.coords t) z :=
      funext fun a => by match a with | ⟨0, _⟩ => rfl | ⟨1, _⟩ => rfl
    rw [hz, ent3_apply]
    refine congrArg (arg5 m c) (funext fun a => Fin.ext ?_)
    match a with
    | ⟨0, _⟩ => show win0_3.index t (0 : Fin 2) * 2048 + 1 * (y 1).val = win0_4.index t (1 : Fin 2) * 2048 + 1 * (y 1).val; rw [e30]
    | ⟨1, _⟩ => show win0_3.index t (1 : Fin 2) * 512 + 1 * k.val = k.val; rw [e31]; omega
  simp only [blk0_apply, blk1_apply, r2, r3]

/-! ## The blocks cover the array -/

/-- An index of the output array is in point `t`'s block iff each coordinate is in the block's range on its axis,
    the range cut at the array's end. -/
theorem mem_blk (t : Fin cfg0.N) (i : S512x200000.Idx) :
    i ∈ ((cfg0.win 4).blk t).view.set ↔ ∀ a : Fin 2, win0_4.index t a * S512x2048.size a ≤ (i a).val
      ∧ (i a).val < win0_4.index t a * S512x2048.size a + win0_4.xsize (grid0.coords t) a := by
  show i ∈ ((View.whole main_v8).slice (win0_4.rect t)).set ↔ _
  rw [View.set_slice_whole, Rect.mem_set_unit]
  exact Iff.rfl

/-- How far a point's block reaches, decided over the grid: all 512 rows, and 2048 columns or up to the array's
    end. -/
theorem reach : ∀ t : Fin cfg0.N, win0_4.xsize (grid0.coords t) (0 : Fin 2) = 512
    ∧ (win0_4.xsize (grid0.coords t) (1 : Fin 2) = 2048 ∨ 200000 ≤ t.val * 2048 + win0_4.xsize (grid0.coords t) (1 : Fin 2)) :=
  (by decide +kernel : ∀ t : Fin grid0.N, _)

/-- Every index of the output array is in the block of the point its column falls to, and every point writes its
    block back. -/
theorem cover (i : S512x200000.Idx) :
    ∃ t : Fin cfg0.N, (cfg0.win 4).flush t = true ∧ i ∈ ((cfg0.win 4).blk t).view.set := by
  have hi0 : (i 0).val < 512 := (i 0).isLt
  have hi1 : (i 1).val < 200000 := (i 1).isLt
  have hN : cfg0.N = 98 := N_0
  refine ⟨⟨(i 1).val / 2048, by rw [hN]; omega⟩, flush0_4 _, ?_⟩
  rw [mem_blk]
  obtain ⟨-, -, -, -, -, -, -, -, e40, e41⟩ := idx_facts (⟨(i 1).val / 2048, by rw [hN]; omega⟩ : Fin cfg0.N)
  obtain ⟨x0, x1⟩ := reach (⟨(i 1).val / 2048, by rw [hN]; omega⟩ : Fin cfg0.N)
  intro a
  match a with
  | ⟨0, _⟩ =>
    show win0_4.index _ (0 : Fin 2) * 512 ≤ (i 0).val ∧ (i 0).val < win0_4.index _ (0 : Fin 2) * 512 + win0_4.xsize _ (0 : Fin 2)
    rw [e40, x0]; omega
  | ⟨1, _⟩ =>
    show win0_4.index _ (1 : Fin 2) * 2048 ≤ (i 1).val ∧ (i 1).val < win0_4.index _ (1 : Fin 2) * 2048 + win0_4.xsize _ (1 : Fin 2)
    rw [e41]
    show (i 1).val / 2048 * 2048 ≤ (i 1).val ∧ (i 1).val < (i 1).val / 2048 * 2048 + win0_4.xsize _ (1 : Fin 2)
    rcases x1 with x1 | x1
    · rw [x1]; omega
    · have x1' : 200000 ≤ (i 1).val / 2048 * 2048 + win0_4.xsize (grid0.coords (⟨(i 1).val / 2048, by rw [hN]; omega⟩ : Fin cfg0.N)) (1 : Fin 2) := x1
      omega

/-! ## The result array, and the run read -/

/-- THE RESULT ARRAY after the run holds the scores. -/
theorem final (c : Dev nD) : (dats m 0 c).arrAt 4 cfg0.N = target m c :=
  (dats m 0 c).arrAt_eq_of_cover 4 (target m c) (fun t _ => flushed_eq m c t) cover

/-- From any memory with zero counters every weakly fair execution of the idealized kernel's program terminates with
    the result array at the scores of the launch contents and the six argument arrays as they were. -/
theorem run : θ_run defs (onTc (τ := τ) (main (F := Ideal))) ⟨m, fun _ => 0, ρ⟩ fun r => ∀ c : Dev nD,
      r.2.mem ((c.tc : Thread nD τ).loc main_v8) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ keptColumns)

end Cert.Proof.KI

end
-- ==== Proof.RefScores.lean ====
/-
  The reference computes the scores: its two whole-array products, each contracting the embedding axis of the mixed
  head–relation array against every entity's row, summed, read at an index, are the two sums of `Cert.Spec.scores`.
-/
import proofs.«120887_j69114613727355_1_alg».proof.Proof.Gen.ReferenceIdeal.Read
import proofs.«120887_j69114613727355_1_alg».proof.Proof.Spec

noncomputable section

namespace Cert.Proof.Ref

open Cert.ReferenceIdeal Cert.ReferenceIdeal.Read
open Idealize.ShloMosaic Idealize.ShloMosaic.ValueIdx

/-- The left operand of either product is read at (row, k): -/
theorem lidx6 (i : S512x200000.Idx) (k : Fin 512) : lidx_main_v6 i k = ix2 (i 0) k :=
  funext fun a => by match a with | ⟨0, _⟩ => rfl | ⟨1, _⟩ => rfl
theorem lidx7 (i : S512x200000.Idx) (k : Fin 512) : lidx_main_v7 i k = ix2 (i 0) k :=
  funext fun a => by match a with | ⟨0, _⟩ => rfl | ⟨1, _⟩ => rfl
/-- and the right one at (entity, k). -/
theorem ridx6 (i : S512x200000.Idx) (k : Fin 512) : ridx_main_v6 i k = ix2 (i 1) k :=
  funext fun a => by match a with | ⟨0, _⟩ => rfl | ⟨1, _⟩ => rfl
theorem ridx7 (i : S512x200000.Idx) (k : Fin 512) : ridx_main_v7 i k = ix2 (i 1) k :=
  funext fun a => by match a with | ⟨0, _⟩ => rfl | ⟨1, _⟩ => rfl

/-- The reference's result, as a function of the arguments, is the scores. -/
theorem val_eq_scores (a0 a1 a2 a3 : FVec Ideal S512x512 .f32) (a4 a5 : FVec Ideal S200000x512 .f32) :
    val_main_v8 (F := Ideal) a0 a1 a2 a3 a4 a5 = Cert.Spec.scores a0 a1 a2 a3 a4 a5 := by
  funext i
  rw [val_main_v8_apply, val_main_v6_apply, val_main_v7_apply]
  simp only [lidx6, lidx7, ridx6, ridx7]
  rfl

end Cert.Proof.Ref

end
-- ==== Proof.lean ====
/-
  Scoring every entity against a batch of head–relation pairs in a complex-valued bilinear model: the kernel and its
  reference compute the same scores over the extended reals.

  With (a0, a1) the real and imaginary parts of the heads, (a2, a3) those of the relations and (a4, a5) those of the
  200000 entities, the score of row b against entity n is

      Σ_k (a0·a2 − a1·a3)(b, k) · a4(n, k)  +  Σ_k (a1·a2 + a0·a3)(b, k) · a5(n, k),      k < 512.

  The reference forms the two mixed arrays and contracts each with the whole entity array.  The kernel forms the same
  two mixed arrays on the host, keeps them resident, and walks the entities in 98 blocks of 2048: at each block it
  contracts the resident arrays with the block's rows and writes 2048 columns of the result.  The last block holds only
  1344 entities; its remaining rows hold words nothing names, the columns computed from them fall outside the result
  array and are never written.  At the ideal instance a change of float format is the identity and each contraction is
  the plain sum of products, so both sides are the displayed formula entry by entry; no law of the extended reals beyond
  that reading is used, and the finiteness of the inputs is not needed.

  The frames: the reference is a straight line of host operations; the kernel's program is the host lines and one
  pipelined region, whose body (loads, two products, one store) is run symbolically once for all grid points.  At the
  word-level instance nothing is said of the result array; at the ideal instance the result array is the scores.
  The idealization rewrote no operation, so there is nothing to preserve.
-/
import proofs.«120887_j69114613727355_1_alg».proof.Defs
import proofs.«120887_j69114613727355_1_alg».proof.Proof.Gen.Kernel
import proofs.«120887_j69114613727355_1_alg».proof.Proof.Gen.KernelIdeal
import proofs.«120887_j69114613727355_1_alg».proof.Proof.Gen.ReferenceIdeal
import proofs.«120887_j69114613727355_1_alg».proof.Proof.Gen.ReferenceIdeal.Run
import proofs.«120887_j69114613727355_1_alg».proof.Proof.Gen.ReferenceIdeal.Read
import proofs.«120887_j69114613727355_1_alg».proof.Proof.Gen.Pre_finite_inputs
import proofs.«120887_j69114613727355_1_alg».proof.Proof.KernelBody
import proofs.«120887_j69114613727355_1_alg».proof.Proof.KernelIdealScores
import proofs.«120887_j69114613727355_1_alg».proof.Proof.RefScores

noncomputable section

namespace Cert.Proof

open Idealize.ShloMosaic Idealize.SL.Sem

/-- The word-level kernel's program runs to the end and leaves its arguments as they were. -/
theorem frame_kernel : Cert.frame_Kernel := fun m ρ _ => Cert.Proof.K.frame m ρ

/-- So does the idealized kernel's. -/
theorem frame_kernelIdeal : Cert.frame_KernelIdeal := fun m ρ _ => Cert.Proof.KI.frame m ρ Cert.Proof.KI.keptColumns

/-- So does the reference's: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the result array at the scores of those
    arguments. -/
theorem algebraic : Cert.algebraic_KernelIdeal_ReferenceIdeal := by
  intro m ρ m' ρ' _ hagree
  refine ⟨fun c => Cert.Proof.KI.target m c, Cert.Proof.KI.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Proof.Ref.val_eq_scores,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
